-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) (main_arg1 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  main_v8
-- ==== Kernel.lean ====
abbrev S4x4096x4096 : Shape := ⟨3, ![4, 4096, 4096]⟩
abbrev S16384x4096 : Shape := ⟨2, ![16384, 4096]⟩
abbrev S384x4096 : Shape := ⟨2, ![384, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S4x4096x4096, .f32⟩
  | .local _ .vmem, ⟨0, _⟩ => ⟨S384x4096, .f32⟩
  | .local _ .vmem, ⟨1, _⟩ => ⟨S384x4096, .f32⟩
  | .local _ .vmem, ⟨2, _⟩ => ⟨S384x4096, .f32⟩
  | .local _ .vmem, ⟨3, _⟩ => ⟨S384x4096, .f32⟩
  | .local _ .vmem, ⟨4, _⟩ => ⟨S384x4096, .f32⟩
  | .local _ .vmem, ⟨5, _⟩ => ⟨S384x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  inb_S384x4096_S384x4096_0_0 : ∀ a, (![0, 0] : Fin 2 → Nat) a + S384x4096.size a ≤ S384x4096.size a
  h_S384x4096 : 0 < S384x4096.numel
  shapeCasts_S384x4096_S384x4096 : S384x4096.ShapeCasts S384x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S384x4096.size a < S16384x4096.size a
  hwx0_0 : ∀ i : grid0.Coords, EltTy.bits .f32 = 32 ∨ (Rect.unit (s := S16384x4096) (fun a => cc0_transform_0 i a * S384x4096.size a) (fun a => (Pipeline.Clip.of (cc0_transform_0 i a) (S384x4096.size a) (S16384x4096.size a)).extent (S384x4096.size a)) fun a => Pipeline.Clip.inb (Pipeline.Clip.ok_of (hstart0_0 i a))).WholeWords (EltTy.packing .f32)
  hwxs0_0 : ∀ i : grid0.Coords, EltTy.bits .f32 = 32 ∨ (Rect.unit (s := S384x4096) (fun _ => 0) (fun a => (Pipeline.Clip.of (cc0_transform_0 i a) (S384x4096.size a) (S16384x4096.size a)).extent (S384x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S384x4096.size a < S16384x4096.size a
  hwx0_1 : ∀ i : grid0.Coords, EltTy.bits .f32 = 32 ∨ (Rect.unit (s := S16384x4096) (fun a => cc0_transform_1 i a * S384x4096.size a) (fun a => (Pipeline.Clip.of (cc0_transform_1 i a) (S384x4096.size a) (S16384x4096.size a)).extent (S384x4096.size a)) fun a => Pipeline.Clip.inb (Pipeline.Clip.ok_of (hstart0_1 i a))).WholeWords (EltTy.packing .f32)
  hwxs0_1 : ∀ i : grid0.Coords, EltTy.bits .f32 = 32 ∨ (Rect.unit (s := S384x4096) (fun _ => 0) (fun a => (Pipeline.Clip.of (cc0_transform_1 i a) (S384x4096.size a) (S16384x4096.size a)).extent (S384x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S384x4096.size a < S16384x4096.size a
  hwx0_2 : ∀ i : grid0.Coords, EltTy.bits .f32 = 32 ∨ (Rect.unit (s := S16384x4096) (fun a => cc0_transform_2 i a * S384x4096.size a) (fun a => (Pipeline.Clip.of (cc0_transform_2 i a) (S384x4096.size a) (S16384x4096.size a)).extent (S384x4096.size a)) fun a => Pipeline.Clip.inb (Pipeline.Clip.ok_of (hstart0_2 i a))).WholeWords (EltTy.packing .f32)
  hwxs0_2 : ∀ i : grid0.Coords, EltTy.bits .f32 = 32 ∨ (Rect.unit (s := S384x4096) (fun _ => 0) (fun a => (Pipeline.Clip.of (cc0_transform_2 i a) (S384x4096.size a) (S16384x4096.size a)).extent (S384x4096.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S384x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S384x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S384x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where

variable [Facts₀]

class Facts : Prop extends Facts₀ where

variable [Facts]
-- ==== Proof.BitsBody.lean ====
/-
  The multiply kernel's body and frame run, for any float instance.

  The region is one pallas_call over two (16384, 4096) arrays in row blocks of 384 rows on a grid of 43 points:
  42 whole blocks and a last block of which only the first 256 rows lie inside the arrays (42 · 384 + 256 = 16384).
  At each point the two input blocks are fetched into staging buffers, the body loads both buffers whole, multiplies
  them lane by lane and stores the product whole into the result's staging buffer, which is then written back.
  At the last point the fetch fills only the first 256 rows of each input buffer and the write-back moves only the
  first 256 rows of the result buffer; the remaining 128 rows hold words nothing names, the body multiplies them too,
  and nothing reads the outcome. So every statement about a staging buffer is made on the rows inside the array only.

  This module gives: what each buffer holds after the body at a point (on the rows inside the array: the two input
  blocks and their lane-wise product), the body's triple, the obligation at every point, and the run of the whole
  program to the library's frame post.
-/
import proofs.«419511_j51969104281833_3_alg».proof.Proof.Gen.Kernel.Frame
import proofs.«419511_j51969104281833_3_alg».proof.Proof.Gen.Kernel.Skeleton
import proofs.«419511_j51969104281833_3_alg».proof.Proof.Gen.Kernel.Points
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after the body -/

/-- The first input's block at point `t`: the rows of the array inside the block (384, or 256 at the last point). -/
def xblk (c : Dev nD) (t : Fin cfg0.N) : (win0_0.xblock (grid0.coords t)).Idx → Elt F .f32 :=
  (win0_0.blk t).view.read (Elt F) (V m c main_v0)
/-- The second input's block at point `t`. -/
def yblk (c : Dev nD) (t : Fin cfg0.N) : (win0_1.xblock (grid0.coords t)).Idx → Elt F .f32 :=
  (win0_1.blk t).view.read (Elt F) (V m c main_v1)

/-- The first input's staging buffer after the body: its block on the rows inside the array, the zero word on the
    rows past the array's end (a filler: nothing is claimed of those rows). -/
def xbuf (c : Dev nD) (t : Fin cfg0.N) : S384x4096.Idx → Elt F .f32 :=
  win0_0.fill (grid0.coords t) (fun _ => Scalar.ofBits .f32 0#32) (xblk m c t)
/-- The second input's staging buffer after the body, likewise. -/
def ybuf (c : Dev nD) (t : Fin cfg0.N) : S384x4096.Idx → Elt F .f32 :=
  win0_1.fill (grid0.coords t) (fun _ => Scalar.ofBits .f32 0#32) (yblk m c t)
/-- The result's staging buffer after the body: the lane-wise product of the other two. -/
def pbuf (c : Dev nD) (t : Fin cfg0.N) : S384x4096.Idx → Elt F .f32 :=
  k0_pay1 (xbuf m c t) (ybuf m c t)

/-- The proof data of the pipeline on device `c`: the arrays as the region finds them; after the body the three
    staging buffers as above; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => ybuf m c t
    | ⟨2, _⟩ => pbuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xbuf m c t := by dsimp only [dats]
theorem after_1 (c : Dev nD) (t : Fin cfg0.N) : (dats m 0 c).after 1 t = ybuf m c t := by dsimp only [dats]
theorem after_2 (c : Dev nD) (t : Fin cfg0.N) : (dats m 0 c).after 2 t = pbuf m c t := by dsimp only [dats]

/-! ## What the body finds -/

/-- The inputs are fetched at every point: the buffer holds the block on the rows inside the array and whatever
    the fetch's overwrite left, `d`, on the others. -/
theorem before_0 (c : Dev nD) (t : Fin cfg0.N) (d) :
    (dats m 0 c).before 0 t d = win0_0.fill (grid0.coords t) d (xblk m c t) := by
  rw [(dats m 0 c).before_fetched 0 t (fetch0_0 t) d]; rfl
theorem before_1 (c : Dev nD) (t : Fin cfg0.N) (d) :
    (dats m 0 c).before 1 t d = win0_1.fill (grid0.coords t) d (yblk m c t) := by
  rw [(dats m 0 c).before_fetched 1 t (fetch0_1 t) d]; rfl
/-- The result's buffer is written back at every point, so the body finds contents nothing names. -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body's triple -/

/-- The body on whole staging memrefs, the inputs' holding `x0` and `x1` and the result's anything: two whole
    loads, the product, a load of the result's buffer nothing uses, one whole store. The inputs' buffers end as they
    were, the result's holds the lane-wise product. -/
theorem sound_kernel (c : Dev nD) (E : Set ℕ) (i : grid0.Coords)
    (arg1 : Memref sig .tc .vmem S384x4096 .f32) (harg1 : arg1.IsWhole)
    (arg2 : Memref sig .tc .vmem S384x4096 .f32) (harg2 : arg2.IsWhole)
    (arg3 : Memref sig .tc .vmem S384x4096 .f32) (harg3 : arg3.IsWhole)
    (x0 x1 : Vec F S384x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mul_kernel i arg1 harg1 arg2 harg2 arg3 harg3) K := by
  -- the accesses are at offsets zero and the buffer's own sizes: a load reads the contents, the one store covers
  have hz : (![0, 0] : Fin 2 → Nat) = fun _ => 0 := funext fun a => by fin_cases a <;> rfl
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S384x4096_S384x4096_0_0 y⟩),
    View.canon_unit_zero hz]
  simp only [View.readAt_eq_ld, View.ld_unit_zero (S := S384x4096) hz]

/-! ## The obligation at every point -/

/-- The result's block shape and the inputs' are cut alike (the three index maps are one function of the point),
    so an index of the result's moved part is in an input's moved part: there the input's buffer holds its block
    whatever filled the rest. -/
theorem fill0_at (i : grid0.Coords) (d d' : S384x4096.Idx → Elt F .f32) (g : (win0_0.xblock i).Idx → Elt F .f32)
    (j : (win0_2.xblock i).Idx) :
    win0_0.fill i d g (win0_2.xinj i j) = win0_0.fill i d' g (win0_2.xinj i j) := by
  have h : win0_0.moved i (win0_2.xinj i j) = true := (win0_0.moved_iff i _).mpr fun a => (j a).isLt
  unfold Window.fill; rw [dif_pos h, dif_pos h]
theorem fill1_at (i : grid0.Coords) (d d' : S384x4096.Idx → Elt F .f32) (g : (win0_1.xblock i).Idx → Elt F .f32)
    (j : (win0_2.xblock i).Idx) :
    win0_1.fill i d g (win0_2.xinj i j) = win0_1.fill i d' g (win0_2.xinj i j) := by
  have h : win0_1.moved i (win0_2.xinj i j) = true := (win0_1.moved_iff i _).mpr fun a => (j a).isLt
  unfold Window.fill; rw [dif_pos h, dif_pos h]

/-- The product is lane-wise: at an index it is the product of the two buffers' entries there. -/
theorem pay_apply (x0 x1 : Vec F S384x4096 .f32) (y : S384x4096.Idx) :
    k0_pay1 x0 x1 y = FloatOps.mulf (x0 y) (x1 y) := by
  unfold k0_pay1
  rw [shapeCast_self, shapeCast_self]; rfl

/-- On the rows the write-back moves, the product buffer does not depend on what filled the inputs' buffers past
    the array's end. -/
theorem cut_pay (i : grid0.Coords) (d0 d0' d1 d1' : S384x4096.Idx → Elt F .f32)
    (g0 : (win0_0.xblock i).Idx → Elt F .f32) (g1 : (win0_1.xblock i).Idx → Elt F .f32) :
    win0_2.cut i (k0_pay1 (win0_0.fill i d0 g0) (win0_1.fill i d1 g1))
      = win0_2.cut i (k0_pay1 (win0_0.fill i d0' g0) (win0_1.fill i d1' g1)) := by
  funext j
  show k0_pay1 _ _ (win0_2.xinj i j) = k0_pay1 _ _ (win0_2.xinj i j)
  rw [pay_apply, pay_apply, fill0_at i d0 d0' g0 j, fill1_at i d1 d1' g1 j]

/-- The library's body obligation: the inputs' buffers arrive holding their blocks filled out past the array's end
    with whatever the fetch left, the result's holding anything; the body leaves the inputs' as found and the
    result's at their product, which on the rows inside the array is what the proof data names. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (xblk m c t)) (win0_1.fill (grid0.coords t) d1 (yblk m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    rw [after_0]; unfold xbuf; rw [Window.cut_fill]; iexact H0
  isplitl [H1]
  · iexists d1
    rw [after_1]; unfold ybuf; rw [Window.cut_fill]; iexact H1
  · iexists k0_pay1 (win0_0.fill (grid0.coords t) d0 (xblk m c t)) (win0_1.fill (grid0.coords t) d1 (yblk m c t))
    rw [after_2]; unfold pbuf xbuf ybuf
    have e := win0_2.fill_congr_cut (grid0.coords t)
      (cut_pay (F := F) (grid0.coords t) d0 (fun _ => Scalar.ofBits .f32 0#32) d1 (fun _ => Scalar.ofBits .f32 0#32)
        (xblk m c t) (yblk m c t))
    change _ ⊢ owns _ _ _ (win0_2.fill (grid0.coords t) _ (win0_2.cut (grid0.coords t) _))
    erw [e]

/-! ## The run and the frame -/

set_option backward.isDefEq.respectTransparency.types false in
/-- For any values, from any memory with zero counters: every weakly fair execution of the program terminates, and
    every final state has every array of the pipeline at what the library computes from the proof data and every
    other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBody.lean ====
/-
  The multiply kernel's body and frame run, for any float instance.

  The region is one pallas_call over two (16384, 4096) arrays in row blocks of 384 rows on a grid of 43 points:
  42 whole blocks and a last block of which only the first 256 rows lie inside the arrays (42 · 384 + 256 = 16384).
  At each point the two input blocks are fetched into staging buffers, the body loads both buffers whole, multiplies
  them lane by lane and stores the product whole into the result's staging buffer, which is then written back.
  At the last point the fetch fills only the first 256 rows of each input buffer and the write-back moves only the
  first 256 rows of the result buffer; the remaining 128 rows hold words nothing names, the body multiplies them too,
  and nothing reads the outcome. So every statement about a staging buffer is made on the rows inside the array only.

  This module gives: what each buffer holds after the body at a point (on the rows inside the array: the two input
  blocks and their lane-wise product), the body's triple, the obligation at every point, and the run of the whole
  program to the library's frame post.
-/
import proofs.«419511_j51969104281833_3_alg».proof.Proof.Gen.KernelIdeal.Frame
import proofs.«419511_j51969104281833_3_alg».proof.Proof.Gen.KernelIdeal.Skeleton
import proofs.«419511_j51969104281833_3_alg».proof.Proof.Gen.KernelIdeal.Points
import Idealize.ShloMosaic.Lib.Pipeline.Kit
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after the body -/

/-- The first input's block at point `t`: the rows of the array inside the block (384, or 256 at the last point). -/
def xblk (c : Dev nD) (t : Fin cfg0.N) : (win0_0.xblock (grid0.coords t)).Idx → Elt F .f32 :=
  (win0_0.blk t).view.read (Elt F) (V m c main_v0)
/-- The second input's block at point `t`. -/
def yblk (c : Dev nD) (t : Fin cfg0.N) : (win0_1.xblock (grid0.coords t)).Idx → Elt F .f32 :=
  (win0_1.blk t).view.read (Elt F) (V m c main_v1)

/-- The first input's staging buffer after the body: its block on the rows inside the array, the zero word on the
    rows past the array's end (a filler: nothing is claimed of those rows). -/
def xbuf (c : Dev nD) (t : Fin cfg0.N) : S384x4096.Idx → Elt F .f32 :=
  win0_0.fill (grid0.coords t) (fun _ => Scalar.ofBits .f32 0#32) (xblk m c t)
/-- The second input's staging buffer after the body, likewise. -/
def ybuf (c : Dev nD) (t : Fin cfg0.N) : S384x4096.Idx → Elt F .f32 :=
  win0_1.fill (grid0.coords t) (fun _ => Scalar.ofBits .f32 0#32) (yblk m c t)
/-- The result's staging buffer after the body: the lane-wise product of the other two. -/
def pbuf (c : Dev nD) (t : Fin cfg0.N) : S384x4096.Idx → Elt F .f32 :=
  k0_pay1 (xbuf m c t) (ybuf m c t)

/-- The proof data of the pipeline on device `c`: the arrays as the region finds them; after the body the three
    staging buffers as above; the invariant the scoped rest and the generator register, untouched; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => xbuf m c t
    | ⟨1, _⟩ => ybuf m c t
    | ⟨2, _⟩ => pbuf m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xbuf m c t := by dsimp only [dats]
theorem after_1 (c : Dev nD) (t : Fin cfg0.N) : (dats m 0 c).after 1 t = ybuf m c t := by dsimp only [dats]
theorem after_2 (c : Dev nD) (t : Fin cfg0.N) : (dats m 0 c).after 2 t = pbuf m c t := by dsimp only [dats]

/-! ## What the body finds -/

/-- The inputs are fetched at every point: the buffer holds the block on the rows inside the array and whatever
    the fetch's overwrite left, `d`, on the others. -/
theorem before_0 (c : Dev nD) (t : Fin cfg0.N) (d) :
    (dats m 0 c).before 0 t d = win0_0.fill (grid0.coords t) d (xblk m c t) := by
  rw [(dats m 0 c).before_fetched 0 t (fetch0_0 t) d]; rfl
theorem before_1 (c : Dev nD) (t : Fin cfg0.N) (d) :
    (dats m 0 c).before 1 t d = win0_1.fill (grid0.coords t) d (yblk m c t) := by
  rw [(dats m 0 c).before_fetched 1 t (fetch0_1 t) d]; rfl
/-- The result's buffer is written back at every point, so the body finds contents nothing names. -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body's triple -/

/-- The body on whole staging memrefs, the inputs' holding `x0` and `x1` and the result's anything: two whole
    loads, the product, a load of the result's buffer nothing uses, one whole store. The inputs' buffers end as they
    were, the result's holds the lane-wise product. -/
theorem sound_kernel (c : Dev nD) (E : Set ℕ) (i : grid0.Coords)
    (arg1 : Memref sig .tc .vmem S384x4096 .f32) (harg1 : arg1.IsWhole)
    (arg2 : Memref sig .tc .vmem S384x4096 .f32) (harg2 : arg2.IsWhole)
    (arg3 : Memref sig .tc .vmem S384x4096 .f32) (harg3 : arg3.IsWhole)
    (x0 x1 : Vec F S384x4096 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mul_kernel i arg1 harg1 arg2 harg2 arg3 harg3) K := by
  -- the accesses are at offsets zero and the buffer's own sizes: a load reads the contents, the one store covers
  have hz : (![0, 0] : Fin 2 → Nat) = fun _ => 0 := funext fun a => by fin_cases a <;> rfl
  simp only [cc0__mul_kernel_eq_skeleton]; unfold cc0__mul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S384x4096_S384x4096_0_0 y⟩),
    View.canon_unit_zero hz]
  simp only [View.readAt_eq_ld, View.ld_unit_zero (S := S384x4096) hz]

/-! ## The obligation at every point -/

/-- The result's block shape and the inputs' are cut alike (the three index maps are one function of the point),
    so an index of the result's moved part is in an input's moved part: there the input's buffer holds its block
    whatever filled the rest. -/
theorem fill0_at (i : grid0.Coords) (d d' : S384x4096.Idx → Elt F .f32) (g : (win0_0.xblock i).Idx → Elt F .f32)
    (j : (win0_2.xblock i).Idx) :
    win0_0.fill i d g (win0_2.xinj i j) = win0_0.fill i d' g (win0_2.xinj i j) := by
  have h : win0_0.moved i (win0_2.xinj i j) = true := (win0_0.moved_iff i _).mpr fun a => (j a).isLt
  unfold Window.fill; rw [dif_pos h, dif_pos h]
theorem fill1_at (i : grid0.Coords) (d d' : S384x4096.Idx → Elt F .f32) (g : (win0_1.xblock i).Idx → Elt F .f32)
    (j : (win0_2.xblock i).Idx) :
    win0_1.fill i d g (win0_2.xinj i j) = win0_1.fill i d' g (win0_2.xinj i j) := by
  have h : win0_1.moved i (win0_2.xinj i j) = true := (win0_1.moved_iff i _).mpr fun a => (j a).isLt
  unfold Window.fill; rw [dif_pos h, dif_pos h]

/-- The product is lane-wise: at an index it is the product of the two buffers' entries there. -/
theorem pay_apply (x0 x1 : Vec F S384x4096 .f32) (y : S384x4096.Idx) :
    k0_pay1 x0 x1 y = FloatOps.mulf (x0 y) (x1 y) := by
  unfold k0_pay1
  rw [shapeCast_self, shapeCast_self]; rfl

/-- On the rows the write-back moves, the product buffer does not depend on what filled the inputs' buffers past
    the array's end. -/
theorem cut_pay (i : grid0.Coords) (d0 d0' d1 d1' : S384x4096.Idx → Elt F .f32)
    (g0 : (win0_0.xblock i).Idx → Elt F .f32) (g1 : (win0_1.xblock i).Idx → Elt F .f32) :
    win0_2.cut i (k0_pay1 (win0_0.fill i d0 g0) (win0_1.fill i d1 g1))
      = win0_2.cut i (k0_pay1 (win0_0.fill i d0' g0) (win0_1.fill i d1' g1)) := by
  funext j
  show k0_pay1 _ _ (win0_2.xinj i j) = k0_pay1 _ _ (win0_2.xinj i j)
  rw [pay_apply, pay_apply, fill0_at i d0 d0' g0 j, fill1_at i d1 d1' g1 j]

/-- The library's body obligation: the inputs' buffers arrive holding their blocks filled out past the array's end
    with whatever the fetch left, the result's holding anything; the body leaves the inputs' as found and the
    result's at their product, which on the rows inside the array is what the proof data names. -/
theorem body_obligation (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_0.fill (grid0.coords t) d0 (xblk m c t)) (win0_1.fill (grid0.coords t) d1 (yblk m c t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    rw [after_0]; unfold xbuf; rw [Window.cut_fill]; iexact H0
  isplitl [H1]
  · iexists d1
    rw [after_1]; unfold ybuf; rw [Window.cut_fill]; iexact H1
  · iexists k0_pay1 (win0_0.fill (grid0.coords t) d0 (xblk m c t)) (win0_1.fill (grid0.coords t) d1 (yblk m c t))
    rw [after_2]; unfold pbuf xbuf ybuf
    have e := win0_2.fill_congr_cut (grid0.coords t)
      (cut_pay (F := F) (grid0.coords t) d0 (fun _ => Scalar.ofBits .f32 0#32) d1 (fun _ => Scalar.ofBits .f32 0#32)
        (xblk m c t) (yblk m c t))
    change _ ⊢ owns _ _ _ (win0_2.fill (grid0.coords t) _ (win0_2.cut (grid0.coords t) _))
    erw [e]

/-! ## The run and the frame -/

set_option backward.isDefEq.respectTransparency.types false in
/-- For any values, from any memory with zero counters: every weakly fair execution of the program terminates, and
    every final state has every array of the pipeline at what the library computes from the proof data and every
    other unscoped buffer as the reshape after the region leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its two argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.IdealValue.lean ====
/-
  What the multiply kernel's program computes, for any float instance: its result array is the lane-wise product
  of its two argument arrays.

  The program reshapes each (4, 4096, 4096) argument to (16384, 4096), runs the region, and reshapes the region's
  (16384, 4096) result back. Inside the region point `t` writes back rows 384·t … 384·t + 383 of the product of the
  two reshaped arrays (rows 16128 … 16383 at the last point, 256 rows): the rows that block covers. Every row of the
  result lies in exactly the block of point ⌊row / 384⌋, so after the last write-back the region's result is the
  product of the two reshaped arrays, whole. A reshape only renames positions, and a lane-wise product commutes
  with renaming positions, so reshaping back gives the product of the arguments themselves.
-/
import proofs.«419511_j51969104281833_3_alg».proof.Proof.IdealBody
import Idealize.ShloMosaic.Lib.StableHlo.Run

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## The region's result -/

/-- The lane-wise product of the two reshaped arrays as the region finds them. -/
def prod (c : Dev nD) : S16384x4096.Idx → Elt F .f32 :=
  fun i => FloatOps.mulf ((V m c main_v0 : S16384x4096.Idx → Elt F .f32) i) ((V m c main_v1 : S16384x4096.Idx → Elt F .f32) i)

/-- The block indices and the cut sizes over the grid: block `t` starts at row 384·t and spans every lane; it has
    384 rows inside the array, but for the last (t = 42), which has 256. -/
theorem idx_facts : ∀ t : Fin cfg0.N,
    win0_2.index t (0 : Fin 2) = t.val ∧ win0_2.index t (1 : Fin 2) = 0
      ∧ win0_2.xsize (grid0.coords t) (1 : Fin 2) = 4096
      ∧ win0_2.xsize (grid0.coords t) (0 : Fin 2) = (if t.val < 42 then 384 else 256) :=
  (by decide +kernel : ∀ t : Fin grid0.N, _)

/-- What point `t` writes back — the rows inside the array of the product buffer — is the block of the product of
    the two arrays: on those rows each input buffer holds its array's block, and the three windows' blocks sit at the
    same rows. -/
theorem flushed_eq (c : Dev nD) (t : Fin cfg0.N) :
    (dats m 0 c).flushed 2 t = ((cfg0.win 2).blk t).view.read (Elt F) (prod m c) := by
  show (cfg0.win 2).cut (cfg0.grid.coords t) ((dats m 0 c).after 2 t) = _
  rw [after_2]
  funext j
  show pbuf m c t (win0_2.xinj (grid0.coords t) j) = _
  unfold pbuf
  rw [pay_apply]
  unfold xbuf ybuf
  have e0 : win0_0.fill (grid0.coords t) (fun _ => Scalar.ofBits .f32 0#32) (xblk m c t) (win0_0.xinj (grid0.coords t) j)
      = xblk m c t j := win0_0.fill_xinj _ _ _ j
  have e1 : win0_1.fill (grid0.coords t) (fun _ => Scalar.ofBits .f32 0#32) (yblk m c t) (win0_1.xinj (grid0.coords t) j)
      = yblk m c t j := win0_1.fill_xinj _ _ _ j
  exact congrArg₂ FloatOps.mulf e0 e1

/-- An index of the array is in point `t`'s block iff its row is among the block's rows inside the array. -/
theorem mem_blk (t : Fin cfg0.N) (i : S16384x4096.Idx) :
    i ∈ (win0_2.blk t).view.set
      ↔ win0_2.index t 0 * 384 ≤ (i 0 : Nat) ∧ (i 0 : Nat) < win0_2.index t 0 * 384 + win0_2.xsize (grid0.coords t) 0 := by
  show i ∈ ((View.whole main_v2).slice (win0_2.rect t)).set ↔ _
  rw [View.set_slice_whole, Rect.mem_set_unit]
  have h1 : (i 1 : Nat) < 4096 := (i 1).isLt
  obtain ⟨-, f1, f2, -⟩ := idx_facts t
  refine ⟨fun h => h 0, fun h a => ?_⟩
  match a with
  | ⟨0, _⟩ => exact h
  | ⟨1, _⟩ =>
    change win0_2.index t 1 * 4096 ≤ (i 1 : Nat) ∧ (i 1 : Nat) < win0_2.index t 1 * 4096 + win0_2.xsize (grid0.coords t) 1
    rw [f1, f2, Nat.zero_mul, Nat.zero_add]; exact ⟨Nat.zero_le _, h1⟩

/-- Every row lies in the block of the point ⌊row / 384⌋, and every point writes back. -/
theorem cover (i : S16384x4096.Idx) :
    ∃ t : Fin cfg0.N, (cfg0.win 2).flush t = true ∧ i ∈ ((cfg0.win 2).blk t).view.set := by
  have h0 : (i 0 : Nat) < 16384 := (i 0).isLt
  have ht : (i 0 : Nat) / 384 < cfg0.N := Nat.lt_of_lt_of_eq (by omega) N_0.symm
  refine ⟨⟨(i 0 : Nat) / 384, ht⟩, flush0_2 _, ?_⟩
  show i ∈ (win0_2.blk ⟨(i 0 : Nat) / 384, ht⟩).view.set
  rw [mem_blk]
  obtain ⟨f0, -, -, f3⟩ := idx_facts ⟨(i 0 : Nat) / 384, ht⟩
  rw [f0, f3]
  clear f0 f3
  dsimp only
  split <;> omega

/-- After the last write-back the region's result array holds the product of the two reshaped arrays. -/
theorem final2 (c : Dev nD) : (dats m 0 c).arrAt 2 cfg0.N = prod m c :=
  (dats m 0 c).arrAt_eq_of_cover 2 (prod m c) (fun t _ => flushed_eq m c t) cover

/-! ## Around the region -/

/-- The region finds, as its first array, the first argument's entries in row-major order under the shape
    (16384, 4096); -/
theorem V_v0 (c : Dev nD) : (V m c main_v0 : S16384x4096.Idx → Elt F .f32)
    = shapeCast S16384x4096 (m ((c : Thread nD τ).loc main_arg0)) shapeCasts_S4x4096x4096_S16384x4096 := by
  show StableHlo.after hostOps0 (fun b => m (c, b)) (Proc.devRef .tc main_v0) = _
  after_results
  rfl
/-- and as its second the second argument's. -/
theorem V_v1 (c : Dev nD) : (V m c main_v1 : S16384x4096.Idx → Elt F .f32)
    = shapeCast S16384x4096 (m ((c : Thread nD τ).loc main_arg1)) shapeCasts_S4x4096x4096_S16384x4096 := by
  show StableHlo.after hostOps0 (fun b => m (c, b)) (Proc.devRef .tc main_v1) = _
  after_results
  rfl

/-- The lane-wise product of the two argument arrays. -/
def argProd (c : Dev nD) : S4x4096x4096.Idx → Elt F .f32 :=
  fun i => FloatOps.mulf ((m ((c : Thread nD τ).loc main_arg0) : S4x4096x4096.Idx → Elt F .f32) i)
    ((m ((c : Thread nD τ).loc main_arg1) : S4x4096x4096.Idx → Elt F .f32) i)

/-- The product of two reshaped arrays, reshaped back, is the product of the arrays: position by position the two
    reshapes undo each other. -/
theorem reshape_prod (a b : S4x4096x4096.Idx → Elt F .f32) :
    shapeCast S4x4096x4096 (fun i : S16384x4096.Idx =>
        FloatOps.mulf (shapeCast S16384x4096 a shapeCasts_S4x4096x4096_S16384x4096 i)
          (shapeCast S16384x4096 b shapeCasts_S4x4096x4096_S16384x4096 i)) shapeCasts_S16384x4096_S4x4096x4096
      = fun i => FloatOps.mulf (a i) (b i) := by
  funext i
  have ha := congrFun (shapeCast_shapeCast a shapeCasts_S4x4096x4096_S16384x4096 shapeCasts_S16384x4096_S4x4096x4096) i
  have hb := congrFun (shapeCast_shapeCast b shapeCasts_S4x4096x4096_S16384x4096 shapeCasts_S16384x4096_S4x4096x4096) i
  exact congrArg₂ FloatOps.mulf ha hb

/-- The program's result: the reshape after the region reads the region's result array, which holds the product of
    the reshaped arguments; reshaped back it is the product of the arguments. -/
theorem result_eq (c : Dev nD) :
    Pipeline.afterTail₀ cfgs (dats m) 0 (V0 m) [hostOps1] c main_v3 = argProd m c := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = prod m c := (Pipeline.withArrays_arr spec0 launch0.win.arr_inj c _ _ 2).trans (final2 m c)
  show shapeCast S4x4096x4096 (Pipeline.withArrays (cfgs 0).spec c (V0 m c) (fun w => (dats m 0 c).arrAt w (cfgs 0).N)
    (Proc.devRef .tc main_v2)) shapeCasts_S16384x4096_S4x4096x4096 = argProd m c
  rw [hw]
  unfold prod
  rw [V_v0, V_v1]
  exact reshape_prod _ _

/-! ## The run, with the result named -/

/-- For any values, from any memory with zero counters: every weakly fair execution of the program terminates with
    the result array at the lane-wise product of the two argument arrays, and those unchanged. -/
theorem run : θ_run defs (onTc (τ := τ) (main (F := F))) ⟨m, fun _ => 0, ρ⟩ (fun r => ∀ c : Dev nD,
      r.2.mem ((c.tc : Thread nD τ).loc main_v3) = argProd m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Body

end
-- ==== Proof.lean ====
/-
  The certificate of an elementwise multiply: a pallas_call that multiplies two f32 arrays of shape (4, 4096, 4096)
  lane by lane, in row blocks of 384 rows of their (16384, 4096) reshapes on a grid of 43 points (the last block
  overhanging the arrays by 128 rows), against `x1 * x2` on the host.

  Both programs compute the product of their two arguments position by position, and nothing else: the kernel's
  reshapes and its tiling into row blocks only rename positions. So the two results are equal for every input, with
  no use of the precondition, and no algebraic law beyond "the same product at the same position" is needed.

  The three frames: the kernel's and its idealization's are the run of the region (Proof/BitsBody.lean,
  Proof/IdealBody.lean: one text at the two float instances); the reference's is its run with the result dropped.
  The idealization rewrote nothing, so `preserves` is trivial. `algebraic`: the idealized kernel's result array is
  the lane-wise product of its arguments (Proof/IdealValue.lean), the reference's is the same product by its run.
-/
import proofs.«419511_j51969104281833_3_alg».proof.Defs
import proofs.«419511_j51969104281833_3_alg».proof.Proof.Gen.Kernel
import proofs.«419511_j51969104281833_3_alg».proof.Proof.Gen.Kernel.Skeleton
import proofs.«419511_j51969104281833_3_alg».proof.Proof.Gen.Kernel.Launch
import proofs.«419511_j51969104281833_3_alg».proof.Proof.Gen.Kernel.Points
import proofs.«419511_j51969104281833_3_alg».proof.Proof.Gen.Kernel.Frame
import proofs.«419511_j51969104281833_3_alg».proof.Proof.Gen.KernelIdeal
import proofs.«419511_j51969104281833_3_alg».proof.Proof.Gen.KernelIdeal.Skeleton
import proofs.«419511_j51969104281833_3_alg».proof.Proof.Gen.KernelIdeal.Launch
import proofs.«419511_j51969104281833_3_alg».proof.Proof.Gen.KernelIdeal.Points
import proofs.«419511_j51969104281833_3_alg».proof.Proof.Gen.KernelIdeal.Frame
import proofs.«419511_j51969104281833_3_alg».proof.Proof.Gen.ReferenceIdeal
import proofs.«419511_j51969104281833_3_alg».proof.Proof.Gen.ReferenceIdeal.Run
import proofs.«419511_j51969104281833_3_alg».proof.Proof.Gen.ReferenceIdeal.Read
import proofs.«419511_j51969104281833_3_alg».proof.Proof.Gen.Pre_finite_inputs
import proofs.«419511_j51969104281833_3_alg».proof.Proof.BitsBody
import proofs.«419511_j51969104281833_3_alg».proof.Proof.IdealBody
import proofs.«419511_j51969104281833_3_alg».proof.Proof.IdealValue
import Idealize.ShloMosaic.Adequacy
import Idealize.ShloMosaic.Init

noncomputable section

namespace Cert.Proof

open Idealize.ShloMosaic Idealize.SL.Sem

/-- The kernel as printed runs to the end, faults nowhere and leaves its arguments unchanged. -/
theorem frame_k : Cert.frame_Kernel := fun m ρ _ => Cert.Kernel.Body.frame m ρ
/-- So does its idealization. -/
theorem frame_ki : Cert.frame_KernelIdeal := fun m ρ _ => Cert.KernelIdeal.Body.frame m ρ
/-- The reference is one host multiply: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, the idealized kernel ends with its result at the lane-wise
    product of its arguments and the reference with its result at the lane-wise product of its own: the same array. -/
theorem algebraic : Cert.algebraic_KernelIdeal_ReferenceIdeal := by
  intro m ρ m' ρ' _ hagree
  refine ⟨fun c => Cert.KernelIdeal.Body.argProd m c, Cert.KernelIdeal.Body.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
